-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x512 : Shape := ⟨3, ![2, 256, 512]⟩
abbrev S2x64x512 : Shape := ⟨3, ![2, 64, 512]⟩
abbrev S512x1024 : Shape := ⟨2, ![512, 1024]⟩
abbrev S512 : Shape := ⟨1, ![512]⟩
abbrev S4096x512 : Shape := ⟨2, ![4096, 512]⟩
abbrev S4096 : Shape := ⟨1, ![4096]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S2x64x512 : S_.BroadcastsInDim S2x64x512 (![] : Fin 0 → Fin S2x64x512.rank)
  reducesTo_S2x64x512_S_d0_1_2 : S2x64x512.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x512 .f32) (main_arg5 : FVec F S4096 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S2x256x512 .f32) (main_arg1 : FVec F S2x64x512 .f32) (main_arg2 : FVec F S512x1024 .f32) (main_arg3 : FVec F S512 .f32) (main_arg4 : FVec F S4096x512 .f32) (main_arg5 : FVec F S4096 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S2x64x512 .f32 := Host.absf main_arg1
  let main_cst_0 : FVec F S_ .f32 := constant S_ .f32 0x7F800000#32
  let main_v5 : FVec F S2x64x512 .f32 := broadcastInDim S2x64x512 ![] bcast_S_S2x64x512 main_cst_0
  let main_v6 : IVec S2x64x512 1 := cmpf .olt main_v4 main_v5
  let main_c_1 : IVec S_ 1 := constantI S_ 1 1#1
  let main_v7 : IVec S_ 1 := (fun x v => Host.reduce IntOp.andi x v reducesTo_S2x64x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S2x256x512 : Shape := ⟨3, ![2, 256, 512]⟩
abbrev S2x64x512 : Shape := ⟨3, ![2, 64, 512]⟩
abbrev S512x1024 : Shape := ⟨2, ![512, 1024]⟩
abbrev S512 : Shape := ⟨1, ![512]⟩
abbrev S4096x512 : Shape := ⟨2, ![4096, 512]⟩
abbrev S4096 : Shape := ⟨1, ![4096]⟩
abbrev S1x512 : Shape := ⟨2, ![1, 512]⟩
abbrev S1x4096 : Shape := ⟨2, ![1, 4096]⟩
abbrev S2x256x64x4096 : Shape := ⟨4, ![2, 256, 64, 4096]⟩
abbrev S1x32x512 : Shape := ⟨3, ![1, 32, 512]⟩
abbrev S1x64x512 : Shape := ⟨3, ![1, 64, 512]⟩
abbrev S512x512 : Shape := ⟨2, ![512, 512]⟩
abbrev S1x32x64x512 : Shape := ⟨4, ![1, 32, 64, 512]⟩
abbrev S32x512 : Shape := ⟨2, ![32, 512]⟩
abbrev S64x512 : Shape := ⟨2, ![64, 512]⟩
abbrev S1x1x512 : Shape := ⟨3, ![1, 1, 512]⟩
abbrev S32x1x512 : Shape := ⟨3, ![32, 1, 512]⟩
abbrev S32x64x512 : Shape := ⟨3, ![32, 64, 512]⟩
abbrev S2048x512 : Shape := ⟨2, ![2048, 512]⟩

abbrev nBuf : Space → Nat
  | .hbm => 13
  | .vmem => 12
  | .smem => 0
  | _ => 0

abbrev bufTy : (tb : Table) → Fin (tcTables nBuf tb) → BufTy
  | .hbm, ⟨0, _⟩ => ⟨S2x256x512, .f32⟩
  | .hbm, ⟨1, _⟩ => ⟨S2x64x512, .f32⟩
  | .hbm, ⟨2, _⟩ => ⟨S512x1024, .f32⟩
  | .hbm, ⟨3, _⟩ => ⟨S512, .f32⟩
  | .hbm, ⟨4, _⟩ => ⟨S4096x512, .f32⟩
  | .hbm, ⟨5, _⟩ => ⟨S4096, .f32⟩
  | .hbm, ⟨6, _⟩ => ⟨S2x256x512, .bf16⟩
  | .hbm, ⟨7, _⟩ => ⟨S2x64x512, .bf16⟩
  | .hbm, ⟨8, _⟩ => ⟨S512x1024, .bf16⟩
  | .hbm, ⟨9, _⟩ => ⟨S4096x512, .bf16⟩
  | .hbm, ⟨10, _⟩ => ⟨S1x512, .f32⟩
  | .hbm, ⟨11, _⟩ => ⟨S1x4096, .f32⟩
  | .hbm, ⟨12, _⟩ => ⟨S2x256x64x4096, .f32⟩
  | .local _ .vmem, ⟨0, _⟩ => ⟨S1x32x512, .bf16⟩
  | .local _ .vmem, ⟨1, _⟩ => ⟨S1x32x512, .bf16⟩
  | .local _ .vmem, ⟨2, _⟩ => ⟨S1x64x512, .bf16⟩
  | .local _ .vmem, ⟨3, _⟩ => ⟨S1x64x512, .bf16⟩
  | .local _ .vmem, ⟨4, _⟩ => ⟨S512x1024, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x32x64x512, .f32⟩
  | .local _ .vmem, ⟨11, _⟩ => ⟨S1x32x64x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x32x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x32x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

class Facts₀ : Prop where
  bitsLt_bf16_f32 : FTy.bits .bf16 < FTy.bits .f32
  shapeCasts_S512_S1x512 : S512.ShapeCasts S1x512
  shapeCasts_S4096_S1x4096 : S4096.ShapeCasts S1x4096
  inb_S512x1024_S512x512_0_0 : ∀ a, (![0, 0] : Fin 2 → Nat) a + S512x512.size a ≤ S512x1024.size a
  h_S512x512 : 0 < S512x512.numel
  shapeCasts_S512x512_S512x512 : S512x512.ShapeCasts S512x512
  inb_S512x1024_S512x512_0_512 : ∀ a, (![0, 512] : Fin 2 → Nat) a + S512x512.size a ≤ S512x1024.size a
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  shapeCasts_S32x512_S32x1x512 : S32x512.ShapeCasts S32x1x512
  shapeCasts_S64x512_S1x64x512 : S64x512.ShapeCasts S1x64x512
  broadcasts_S32x1x512_S32x64x512 : S32x1x512.Broadcasts S32x64x512
  broadcasts_S1x64x512_S32x64x512 : S1x64x512.Broadcasts S32x64x512
  broadcasts_S1x1x512_S32x64x512 : S1x1x512.Broadcasts S32x64x512
  shapeCasts_S32x64x512_S2048x512 : S32x64x512.ShapeCasts S2048x512
  inb_S512x512_S512x512_0_0 : ∀ a, (![0, 0] : Fin 2 → Nat) a + S512x512.size a ≤ S512x512.size a
  broadcasts_S1x512_S2048x512 : S1x512.Broadcasts S2048x512
  shapeCasts_S2048x512_S32x64x512 : S2048x512.ShapeCasts S32x64x512
  inb_S1x32x64x512_S1x32x64x512_0_0_0_0 : ∀ a, (![0, 0, 0, 0] : Fin 4 → Nat) a + S1x32x64x512.size a ≤ S1x32x64x512.size a
  h_S1x32x64x512 : 0 < S1x32x64x512.numel
  shapeCasts_S1x32x64x512_S32x64x512 : S1x32x64x512.ShapeCasts S32x64x512
  shapeCasts_S32x64x512_S1x32x64x512 : S32x64x512.ShapeCasts S1x32x64x512
  dot_S32x512_S512x512_S32x512_1_1_0_0_n_n_wf : DotDims.WF S32x512 S512x512 S32x512 [1] [1] [0] [0] [] []
  dot_S64x512_S512x512_S64x512_1_1_0_0_n_n_wf : DotDims.WF S64x512 S512x512 S64x512 [1] [1] [0] [0] [] []
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S2x256x512.size a
  hwx0_0 : ∀ i : grid0.Coords, EltTy.bits .bf16 = 32 ∨ (Rect.block (s := S2x256x512) S1x32x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S2x64x512.size a
  hwx0_1 : ∀ i : grid0.Coords, EltTy.bits .bf16 = 32 ∨ (Rect.block (s := S2x64x512) S1x64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .bf16 = 32 ∨ (Rect.block (s := S4096x512) S512x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x64x512.size a ≤ S2x256x64x4096.size a
  hwx0_6 : ∀ i : grid0.Coords, EltTy.bits .f32 = 32 ∨ (Rect.block (s := S2x256x64x4096) S1x32x64x512.size (cc0_transform_6 i) (hinb0_6 i)).WholeWords (EltTy.packing .f32)

variable [Facts₀]

def dot_S32x512_S512x512_S32x512_1_1_0_0_n_n : DotDims S32x512 S512x512 S32x512 where
  lhsContracting := [1]
  rhsContracting := [1]
  lhsNonContracting := [0]
  rhsNonContracting := [0]
  lhsBatch := []
  rhsBatch := []
  wf := dot_S32x512_S512x512_S32x512_1_1_0_0_n_n_wf
def dot_S64x512_S512x512_S64x512_1_1_0_0_n_n : DotDims S64x512 S512x512 S64x512 where
  lhsContracting := [1]
  rhsContracting := [1]
  lhsNonContracting := [0]
  rhsNonContracting := [0]
  lhsBatch := []
  rhsBatch := []
  wf := dot_S64x512_S512x512_S64x512_1_1_0_0_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_v0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x32x64x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x256x512 : Shape := ⟨3, ![2, 256, 512]⟩
abbrev S2x64x512 : Shape := ⟨3, ![2, 64, 512]⟩
abbrev S512x1024 : Shape := ⟨2, ![512, 1024]⟩
abbrev S512 : Shape := ⟨1, ![512]⟩
abbrev S4096x512 : Shape := ⟨2, ![4096, 512]⟩
abbrev S4096 : Shape := ⟨1, ![4096]⟩
abbrev S512x512 : Shape := ⟨2, ![512, 512]⟩
abbrev S2x256x1x512 : Shape := ⟨4, ![2, 256, 1, 512]⟩
abbrev S2x1x64x512 : Shape := ⟨4, ![2, 1, 64, 512]⟩
abbrev S2x256x64x512 : Shape := ⟨4, ![2, 256, 64, 512]⟩
abbrev S1x1x1x512 : Shape := ⟨4, ![1, 1, 1, 512]⟩
abbrev S2x256x64x4096 : Shape := ⟨4, ![2, 256, 64, 4096]⟩
abbrev S1x1x1x4096 : Shape := ⟨4, ![1, 1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x64x512, .f32⟩
  | .hbm, ⟨2, _⟩ => ⟨S512x1024, .f32⟩
  | .hbm, ⟨3, _⟩ => ⟨S512, .f32⟩
  | .hbm, ⟨4, _⟩ => ⟨S4096x512, .f32⟩
  | .hbm, ⟨5, _⟩ => ⟨S4096, .f32⟩
  | .hbm, ⟨6, _⟩ => ⟨S512x512, .f32⟩
  | .hbm, ⟨7, _⟩ => ⟨S512x512, .f32⟩
  | .hbm, ⟨8, _⟩ => ⟨S2x256x512, .f32⟩
  | .hbm, ⟨9, _⟩ => ⟨S2x64x512, .f32⟩
  | .hbm, ⟨10, _⟩ => ⟨S2x256x1x512, .f32⟩
  | .hbm, ⟨11, _⟩ => ⟨S2x1x64x512, .f32⟩
  | .hbm, ⟨12, _⟩ => ⟨S2x256x64x512, .f32⟩
  | .hbm, ⟨13, _⟩ => ⟨S2x256x64x512, .f32⟩
  | .hbm, ⟨14, _⟩ => ⟨S2x256x64x512, .f32⟩
  | .hbm, ⟨15, _⟩ => ⟨S1x1x1x512, .f32⟩
  | .hbm, ⟨16, _⟩ => ⟨S2x256x64x512, .f32⟩
  | .hbm, ⟨17, _⟩ => ⟨S2x256x64x512, .f32⟩
  | .hbm, ⟨18, _⟩ => ⟨S2x256x64x512, .f32⟩
  | .hbm, ⟨19, _⟩ => ⟨S2x256x64x4096, .f32⟩
  | .hbm, ⟨20, _⟩ => ⟨S1x1x1x4096, .f32⟩
  | .hbm, ⟨21, _⟩ => ⟨S2x256x64x4096, .f32⟩
  | .hbm, ⟨22, _⟩ => ⟨S2x256x64x4096, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S2x256x512_S2x256x1x512_0_1_3 : S2x256x512.BroadcastsInDim S2x256x1x512 (![0, 1, 3] : Fin 3 → Fin S2x256x1x512.rank)
  bcast_S2x64x512_S2x1x64x512_0_2_3 : S2x64x512.BroadcastsInDim S2x1x64x512 (![0, 2, 3] : Fin 3 → Fin S2x1x64x512.rank)
  bcast_S2x256x1x512_S2x256x64x512_0_1_2_3 : S2x256x1x512.BroadcastsInDim S2x256x64x512 (![0, 1, 2, 3] : Fin 4 → Fin S2x256x64x512.rank)
  bcast_S2x1x64x512_S2x256x64x512_0_1_2_3 : S2x1x64x512.BroadcastsInDim S2x256x64x512 (![0, 1, 2, 3] : Fin 4 → Fin S2x256x64x512.rank)
  bcast_S512_S1x1x1x512_3 : S512.BroadcastsInDim S1x1x1x512 (![3] : Fin 1 → Fin S1x1x1x512.rank)
  bcast_S1x1x1x512_S2x256x64x512_0_1_2_3 : S1x1x1x512.BroadcastsInDim S2x256x64x512 (![0, 1, 2, 3] : Fin 4 → Fin S2x256x64x512.rank)
  bcast_S4096_S1x1x1x4096_3 : S4096.BroadcastsInDim S1x1x1x4096 (![3] : Fin 1 → Fin S1x1x1x4096.rank)
  bcast_S1x1x1x4096_S2x256x64x4096_0_1_2_3 : S1x1x1x4096.BroadcastsInDim S2x256x64x4096 (![0, 1, 2, 3] : Fin 4 → Fin S2x256x64x4096.rank)
  dot_S2x256x512_S512x512_S2x256x512_2_1_01_0_n_n_wf : DotDims.WF S2x256x512 S512x512 S2x256x512 [2] [1] [0, 1] [0] [] []
  dot_S2x64x512_S512x512_S2x64x512_2_1_01_0_n_n_wf : DotDims.WF S2x64x512 S512x512 S2x64x512 [2] [1] [0, 1] [0] [] []
  dot_S2x256x64x512_S4096x512_S2x256x64x4096_3_1_012_0_n_n_wf : DotDims.WF S2x256x64x512 S4096x512 S2x256x64x4096 [3] [1] [0, 1, 2] [0] [] []

variable [Facts₀]

def dot_S2x256x512_S512x512_S2x256x512_2_1_01_0_n_n : DotDims S2x256x512 S512x512 S2x256x512 where
  lhsContracting := [2]
  rhsContracting := [1]
  lhsNonContracting := [0, 1]
  rhsNonContracting := [0]
  lhsBatch := []
  rhsBatch := []
  wf := dot_S2x256x512_S512x512_S2x256x512_2_1_01_0_n_n_wf
def dot_S2x64x512_S512x512_S2x64x512_2_1_01_0_n_n : DotDims S2x64x512 S512x512 S2x64x512 where
  lhsContracting := [2]
  rhsContracting := [1]
  lhsNonContracting := [0, 1]
  rhsNonContracting := [0]
  lhsBatch := []
  rhsBatch := []
  wf := dot_S2x64x512_S512x512_S2x64x512_2_1_01_0_n_n_wf
def dot_S2x256x64x512_S4096x512_S2x256x64x4096_3_1_012_0_n_n : DotDims S2x256x64x512 S4096x512 S2x256x64x4096 where
  lhsContracting := [3]
  rhsContracting := [1]
  lhsNonContracting := [0, 1, 2]
  rhsNonContracting := [0]
  lhsBatch := []
  rhsBatch := []
  wf := dot_S2x256x64x512_S4096x512_S2x256x64x4096_3_1_012_0_n_n_wf

class Facts : Prop extends Facts₀ where

variable [Facts]
-- ==== Proof.Spec.lean ====
/-
  The joint network's output as one function of its six argument arrays, entry by entry, on the extended reals.

  For batch b, encoder step p, decoder step u and vocabulary entry q the output is

      ( Σ_t  tanh( (Σ_d enc[b,p,d] · W1[t,d]  +  Σ_d dec[b,u,d] · W1[t,512+d])  +  b1[t] ) · W2[q,t] )  +  b2[q],

  the first 512 columns of W1 acting on the encoder state and the last 512 on the decoder state. The sums are over
  the hidden coordinate t and the model coordinate d, both of extent 512, grouped exactly as written.
-/
import Idealize.ShloMosaic.PureOps.Ideal
import Idealize.ShloMosaic.Lib.ValueIdx

noncomputable section

open scoped BigOperators

namespace Cert.Joint

open Idealize.ShloMosaic Idealize.ShloMosaic.ValueIdx

/-- Column d of W1's encoder half. -/
abbrev encCol (d : Fin 512) : Fin 1024 := ⟨d.val, by have := d.isLt; omega⟩
/-- Column d of W1's decoder half: 512 columns further on. -/
abbrev decCol (d : Fin 512) : Fin 1024 := ⟨512 + d.val, by have := d.isLt; omega⟩

/-- The encoder projection: row (b, p) of the encoder state against row t of W1's encoder half. -/
def encProj (enc : (⟨3, ![2, 256, 512]⟩ : Shape).Idx → EReal) (W1 : (⟨2, ![512, 1024]⟩ : Shape).Idx → EReal)
    (b : Fin 2) (p : Fin 256) (t : Fin 512) : EReal :=
  ∑ d : Fin 512, enc (ix3 b p d) * W1 (ix2 t (encCol d))

/-- The decoder projection: row (b, u) of the decoder state against row t of W1's decoder half. -/
def decProj (dec : (⟨3, ![2, 64, 512]⟩ : Shape).Idx → EReal) (W1 : (⟨2, ![512, 1024]⟩ : Shape).Idx → EReal)
    (b : Fin 2) (u : Fin 64) (t : Fin 512) : EReal :=
  ∑ d : Fin 512, dec (ix3 b u d) * W1 (ix2 t (decCol d))

/-- The hidden activation at (b, p, u, t): tanh of the two projections' sum plus the first bias. -/
def hidden (enc : (⟨3, ![2, 256, 512]⟩ : Shape).Idx → EReal) (dec : (⟨3, ![2, 64, 512]⟩ : Shape).Idx → EReal)
    (W1 : (⟨2, ![512, 1024]⟩ : Shape).Idx → EReal) (b1 : (⟨1, ![512]⟩ : Shape).Idx → EReal)
    (b : Fin 2) (p : Fin 256) (u : Fin 64) (t : Fin 512) : EReal :=
  Ideal.tanh ((encProj enc W1 b p t + decProj dec W1 b u t) + b1 (ix1 t))

/-- One output entry: the hidden row against row q of W2, plus the second bias. -/
def entry (enc : (⟨3, ![2, 256, 512]⟩ : Shape).Idx → EReal) (dec : (⟨3, ![2, 64, 512]⟩ : Shape).Idx → EReal)
    (W1 : (⟨2, ![512, 1024]⟩ : Shape).Idx → EReal) (b1 : (⟨1, ![512]⟩ : Shape).Idx → EReal)
    (W2 : (⟨2, ![4096, 512]⟩ : Shape).Idx → EReal) (b2 : (⟨1, ![4096]⟩ : Shape).Idx → EReal)
    (b : Fin 2) (p : Fin 256) (u : Fin 64) (q : Fin 4096) : EReal :=
  (∑ t : Fin 512, hidden enc dec W1 b1 b p u t * W2 (ix2 q t)) + b2 (ix1 q)

/-- The whole output array. -/
def logits (enc : (⟨3, ![2, 256, 512]⟩ : Shape).Idx → EReal) (dec : (⟨3, ![2, 64, 512]⟩ : Shape).Idx → EReal)
    (W1 : (⟨2, ![512, 1024]⟩ : Shape).Idx → EReal) (b1 : (⟨1, ![512]⟩ : Shape).Idx → EReal)
    (W2 : (⟨2, ![4096, 512]⟩ : Shape).Idx → EReal) (b2 : (⟨1, ![4096]⟩ : Shape).Idx → EReal) :
    (⟨4, ![2, 256, 64, 4096]⟩ : Shape).Idx → EReal :=
  fun i => entry enc dec W1 b1 W2 b2 (i 0) (i 1) (i 2) (i 3)

theorem logits_ix4 (enc : (⟨3, ![2, 256, 512]⟩ : Shape).Idx → EReal) (dec : (⟨3, ![2, 64, 512]⟩ : Shape).Idx → EReal)
    (W1 : (⟨2, ![512, 1024]⟩ : Shape).Idx → EReal) (b1 : (⟨1, ![512]⟩ : Shape).Idx → EReal)
    (W2 : (⟨2, ![4096, 512]⟩ : Shape).Idx → EReal) (b2 : (⟨1, ![4096]⟩ : Shape).Idx → EReal)
    (b : Fin 2) (p : Fin 256) (u : Fin 64) (q : Fin 4096) :
    logits enc dec W1 b1 W2 b2 (ix4 b p u q) = entry enc dec W1 b1 W2 b2 b p u q := rfl

end Cert.Joint

end
-- ==== Proof.RefIsSpec.lean ====
/-
  The reference computes the joint network's output function.

  The reference slices W1 into its two halves, contracts the encoder state with the first and the decoder state with the
  second over the model coordinate, adds the two projections broadcast against each other over the decoder and
  encoder steps, adds the first bias, takes tanh, contracts the hidden coordinate with W2 and adds the second bias.
  Read entry by entry, stage by stage, each contraction is a sum over 512 coordinates and each broadcast or slice
  reads one coordinate tuple of its operand; the coordinates come out as those of `Cert.Joint.entry`.
-/
import proofs.«130876_j14817637171800_1_alg».proof.Proof.Gen.ReferenceIdeal.Read
import proofs.«130876_j14817637171800_1_alg».proof.Proof.Spec

noncomputable section

open scoped BigOperators

namespace Cert.Joint.Ref

open Cert.ReferenceIdeal Cert.ReferenceIdeal.Read Idealize.ShloMosaic Idealize.ShloMosaic.ValueIdx Cert.Joint

/-! ## Where each stage reads its operands -/

/-- The output's bias term reads b2 at the vocabulary coordinate. -/
theorem bias2_idx (b : Fin 2) (p : Fin 256) (u : Fin 64) (q : Fin 4096) :
    idx_main_v14 (idx_main_v15 (ix4 b p u q)) = ix1 q :=
  funext fun a => Fin.ext (by match a with | ⟨0, _⟩ => rfl)

/-- The last contraction reads W2 at row q, column t. -/
theorem w2_idx (b : Fin 2) (p : Fin 256) (u : Fin 64) (q : Fin 4096) (t : Fin 512) :
    ridx_main_v13 (ix4 b p u q) t = ix2 q t :=
  funext fun a => Fin.ext (by match a with | ⟨0, _⟩ => rfl | ⟨1, _⟩ => rfl)

/-- The first bias is read at the hidden coordinate. -/
theorem bias1_idx (b : Fin 2) (p : Fin 256) (u : Fin 64) (q : Fin 4096) (t : Fin 512) :
    idx_main_v9 (idx_main_v10 (lidx_main_v13 (ix4 b p u q) t)) = ix1 t :=
  funext fun a => Fin.ext (by match a with | ⟨0, _⟩ => rfl)

/-- The encoder projection reads the encoder state at (b, p, d) -/
theorem enc_idx (b : Fin 2) (p : Fin 256) (u : Fin 64) (q : Fin 4096) (t d : Fin 512) :
    lidx_main_v2 (idx_main_v4 (idx_main_v6 (lidx_main_v13 (ix4 b p u q) t))) d = ix3 b p d :=
  funext fun a => Fin.ext (by match a with | ⟨0, _⟩ => rfl | ⟨1, _⟩ => rfl | ⟨2, _⟩ => rfl)

/-- and W1 at row t, column d of its first half. -/
theorem encw_idx (b : Fin 2) (p : Fin 256) (u : Fin 64) (q : Fin 4096) (t d : Fin 512) :
    idx_main_v0 (ridx_main_v2 (idx_main_v4 (idx_main_v6 (lidx_main_v13 (ix4 b p u q) t))) d) = ix2 t (encCol d) :=
  funext fun a => Fin.ext (by match a with | ⟨0, _⟩ => rfl | ⟨1, _⟩ => rfl)

/-- The decoder projection reads the decoder state at (b, u, d) -/
theorem dec_idx (b : Fin 2) (p : Fin 256) (u : Fin 64) (q : Fin 4096) (t d : Fin 512) :
    lidx_main_v3 (idx_main_v5 (idx_main_v7 (lidx_main_v13 (ix4 b p u q) t))) d = ix3 b u d :=
  funext fun a => Fin.ext (by match a with | ⟨0, _⟩ => rfl | ⟨1, _⟩ => rfl | ⟨2, _⟩ => rfl)

/-- and W1 at row t, column d of its second half. -/
theorem decw_idx (b : Fin 2) (p : Fin 256) (u : Fin 64) (q : Fin 4096) (t d : Fin 512) :
    idx_main_v1 (ridx_main_v3 (idx_main_v5 (idx_main_v7 (lidx_main_v13 (ix4 b p u q) t))) d) = ix2 t (decCol d) :=
  funext fun a => Fin.ext (by match a with | ⟨0, _⟩ => rfl | ⟨1, _⟩ => rfl)

/-! ## The reference's last stage is the output function -/

theorem ref_eq (x0 : (⟨S2x256x512, .f32⟩ : BufTy).Contents (Elt Ideal)) (x1 : (⟨S2x64x512, .f32⟩ : BufTy).Contents (Elt Ideal))
    (x2 : (⟨S512x1024, .f32⟩ : BufTy).Contents (Elt Ideal)) (x3 : (⟨S512, .f32⟩ : BufTy).Contents (Elt Ideal))
    (x4 : (⟨S4096x512, .f32⟩ : BufTy).Contents (Elt Ideal)) (x5 : (⟨S4096, .f32⟩ : BufTy).Contents (Elt Ideal)) :
    val_main_v16 (F := Ideal) x0 x1 x2 x3 x4 x5 = logits x0 x1 x2 x3 x4 x5 := by
  funext i
  obtain ⟨b, p, u, q, rfl⟩ : ∃ (b : Fin 2) (p : Fin 256) (u : Fin 64) (q : Fin 4096), i = ix4 b p u q :=
    ⟨i 0, i 1, i 2, i 3, eq_ix4 i⟩
  rw [logits_ix4, val_main_v16_apply, val_main_v13_apply, val_main_v15_apply, val_main_v14_apply, bias2_idx]
  unfold entry
  rw [Ideal.addf_def]
  congr 1
  refine Finset.sum_congr rfl fun t _ => ?_
  rw [w2_idx, val_main_v12_apply, val_main_v11_apply, val_main_v8_apply, val_main_v6_apply, val_main_v4_apply,
    val_main_v2_apply, val_main_v7_apply, val_main_v5_apply, val_main_v3_apply, val_main_v10_apply, val_main_v9_apply,
    bias1_idx]
  unfold hidden encProj decProj
  simp only [Ideal.hostUnary_tanh_def, Ideal.addf_def, val_main_v0_apply, val_main_v1_apply, enc_idx, encw_idx, dec_idx,
    decw_idx]

end Cert.Joint.Ref

end
-- ==== Proof.LibStackDots.lean ====
/-
  Matrix products with a transposed operand, alone and over a stack, read at a row and a column.

  A matrix product accumulated into zeros, and the host's `dot_general` over a stack of matrices, are read
  on the extended reals at one output entry as the sum over the contracted coordinate `t` of the products of the
  two operands' entries. Which axis of each operand is contracted decides where `t` sits in each operand's index:
  with the left operand transposed (`Aᵀ B`) it is the left operand's ROW, `Σₜ A[t, p] · B[t, q]`; with neither
  transposed (`A B`) `Σₜ A[p, t] · B[t, q]`; with the right operand transposed (`A Bᵀ`) it is the right
  operand's COLUMN, `Σₜ A[p, t] · B[q, t]`. Over a stack the leading coordinate `g` is carried by both operands
  and the result. In each case the accumulator (if any) contributes `0`, and the sum over the one-axis contraction
  index is re-indexed by that axis's coordinate.
-/
import Idealize.ShloMosaic.PureOps.Ideal.Laws
import Idealize.ShloMosaic.Lib.ValueIdx

noncomputable section

open scoped BigOperators

namespace Idealize.ShloMosaic.StackDots

open Idealize.ShloMosaic Idealize.ShloMosaic.ValueIdx

/-! ## One matrix product into zeros -/

/-- `Aᵀ B` for a `K × M` matrix `A` and a `K × N` matrix `B` (both contracted on their rows), into zeros, at row `p`
    and column `q`, is `Σₜ A[t, p] · B[t, q]`. -/
theorem matmul_tn_zero_apply {φ₁ φ₂ : FTy} {M K N : Nat}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (p : Fin M) (q : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 p q)
      = ∑ t : Fin K, A (ix2 t p) * B (ix2 t q) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun t _ => ?_
  have c := contrEquiv1_symm_val (⟨[0], [0], [1], [1], [], [], w⟩ : DotDims ⟨2, ![K, M]⟩ ⟨2, ![K, N]⟩ ⟨2, ![M, N]⟩) K rfl rfl t
  have l : (⟨[0], [0], [1], [1], [], [], w⟩ : DotDims ⟨2, ![K, M]⟩ ⟨2, ![K, N]⟩ ⟨2, ![M, N]⟩).lhsIdx (ix2 p q)
      ((contrEquiv1 _ K rfl rfl).symm t) = ix2 t p := by
    funext ax; apply Fin.ext
    match ax with
    | ⟨0, _⟩ => simp [DotDims.lhsIdx]; exact c
    | ⟨1, _⟩ => simp [DotDims.lhsIdx]; rfl
  have r : (⟨[0], [0], [1], [1], [], [], w⟩ : DotDims ⟨2, ![K, M]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A B` for an `M × K` matrix `A` and a `K × N` matrix `B` (the left operand's columns contracted with the right
    operand's rows), into zeros, at row `p` and column `q`, is `Σₜ A[p, t] · B[t, q]`. -/
theorem matmul_nn_zero_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    FloatOps.matmul (⟨[1], [0], [0], [1], [], [], w⟩ : DotDims ⟨2, ![M, K]⟩ ⟨2, ![K, N]⟩ ⟨2, ![M, N]⟩) prec A B (constant ⟨2, ![M, N]⟩ .f32 0x00000000#32) (ix2 p q)
      = ∑ t : Fin K, A (ix2 p t) * B (ix2 t q) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A Bᵀ` for an `M × K` matrix `A` and an `N × K` matrix `B` (both contracted on their columns), into zeros, at row
    `p` and column `q`, is `Σₜ A[p, t] · B[q, t]`. -/
theorem matmul_nt_zero_apply {φ₁ φ₂ : FTy} {M K N : Nat}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec A B (constant ⟨2, ![M, N]⟩ .f32 0x00000000#32) (ix2 p q)
      = ∑ t : Fin K, A (ix2 p t) * B (ix2 q t) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun t _ => ?_
  have c := contrEquiv1_symm_val (⟨[1], [1], [0], [0], [], [], w⟩ : DotDims ⟨2, ![M, K]⟩ ⟨2, ![N, K]⟩ ⟨2, ![M, N]⟩) K rfl rfl t
  have l : (⟨[1], [1], [0], [0], [], [], w⟩ : DotDims ⟨2, ![M, K]⟩ ⟨2, ![N, K]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [1], [0], [0], [], [], w⟩ : DotDims ⟨2, ![M, K]⟩ ⟨2, ![N, K]⟩ ⟨2, ![M, N]⟩).rhsIdx (ix2 p q)
      ((contrEquiv1 _ K rfl rfl).symm t) = ix2 q t := by
    funext ax; apply Fin.ext
    match ax with
    | ⟨0, _⟩ => simp [DotDims.rhsIdx]; rfl
    | ⟨1, _⟩ => simp [DotDims.rhsIdx]; exact c
  rw [l, r]

/-! ## The product of two stacks, matrix by matrix -/

/-- `Aᵀ B` member by member, for a stack of `K × M` matrices and a stack of `K × N` matrices (batch axes 0 and 0, each
    member contracted on its rows): at member `g`, row `p` and column `q` it is `Σₜ A[g, t, p] · B[g, t, q]`. -/
theorem dotGeneral_stack_tn_apply {φ₁ φ₂ : FTy} {G M K N : Nat}
    (w : DotDims.WF ⟨3, ![G, K, M]⟩ ⟨3, ![G, K, N]⟩ ⟨3, ![G, M, N]⟩ [1] [1] [2] [2] [0] [0])
    (prec : Option ContractPrecision) (A : FVec Ideal ⟨3, ![G, K, M]⟩ φ₁) (B : FVec Ideal ⟨3, ![G, K, N]⟩ φ₂) (g : Fin G) (p : Fin M) (q : Fin N) :
    Host.dotGeneral (⟨[1], [1], [2], [2], [0], [0], w⟩ : DotDims ⟨3, ![G, K, M]⟩ ⟨3, ![G, K, N]⟩ ⟨3, ![G, M, N]⟩) prec A B (ix3 g p q)
      = ∑ t : Fin K, A (ix3 g t p) * B (ix3 g t q) := by
  show FloatOps.dotGeneral _ prec _ A B (ix3 g p q) = _
  rw [Ideal.dotGeneral_apply,
    ← Equiv.sum_comp (contrEquiv1 (⟨[1], [1], [2], [2], [0], [0], w⟩ : DotDims ⟨3, ![G, K, M]⟩ ⟨3, ![G, K, N]⟩ ⟨3, ![G, M, N]⟩) K rfl rfl).symm]
  refine Finset.sum_congr rfl fun t _ => ?_
  have c := contrEquiv1_symm_val (⟨[1], [1], [2], [2], [0], [0], w⟩ : DotDims ⟨3, ![G, K, M]⟩ ⟨3, ![G, K, N]⟩ ⟨3, ![G, M, N]⟩) K rfl rfl t
  have l : (⟨[1], [1], [2], [2], [0], [0], w⟩ : DotDims ⟨3, ![G, K, M]⟩ ⟨3, ![G, K, N]⟩ ⟨3, ![G, M, N]⟩).lhsIdx (ix3 g p q)
      ((contrEquiv1 _ K rfl rfl).symm t) = ix3 g t p := by
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  have r : (⟨[1], [1], [2], [2], [0], [0], w⟩ : DotDims ⟨3, ![G, K, M]⟩ ⟨3, ![G, K, N]⟩ ⟨3, ![G, M, N]⟩).rhsIdx (ix3 g p q)
      ((contrEquiv1 _ K rfl rfl).symm t) = ix3 g t q := by
    funext ax; apply Fin.ext
    match ax with
    | ⟨0, _⟩ => simp [DotDims.rhsIdx]; rfl
    | ⟨1, _⟩ => simp [DotDims.rhsIdx]; exact c
    | ⟨2, _⟩ => simp [DotDims.rhsIdx]; rfl
  rw [l, r]

/-- `A Bᵀ` member by member, for a stack of `M × K` matrices and a stack of `N × K` matrices (batch axes 0 and 0, each
    member contracted on its columns): at member `g`, row `p` and column `q` it is `Σₜ A[g, p, t] · B[g, q, t]`. -/
theorem dotGeneral_stack_nt_apply {φ₁ φ₂ : FTy} {G M K N : Nat}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂) (g : Fin G) (p : Fin M) (q : Fin N) :
    Host.dotGeneral (⟨[2], [2], [1], [1], [0], [0], w⟩ : DotDims ⟨3, ![G, M, K]⟩ ⟨3, ![G, N, K]⟩ ⟨3, ![G, M, N]⟩) prec A B (ix3 g p q)
      = ∑ t : Fin K, A (ix3 g p t) * B (ix3 g q t) := by
  show FloatOps.dotGeneral _ prec _ A B (ix3 g p q) = _
  rw [Ideal.dotGeneral_apply,
    ← Equiv.sum_comp (contrEquiv1 (⟨[2], [2], [1], [1], [0], [0], w⟩ : DotDims ⟨3, ![G, M, K]⟩ ⟨3, ![G, N, K]⟩ ⟨3, ![G, M, N]⟩) K rfl rfl).symm]
  refine Finset.sum_congr rfl fun t _ => ?_
  have c := contrEquiv1_symm_val (⟨[2], [2], [1], [1], [0], [0], w⟩ : DotDims ⟨3, ![G, M, K]⟩ ⟨3, ![G, N, K]⟩ ⟨3, ![G, M, N]⟩) K rfl rfl t
  have l : (⟨[2], [2], [1], [1], [0], [0], w⟩ : DotDims ⟨3, ![G, M, K]⟩ ⟨3, ![G, N, K]⟩ ⟨3, ![G, M, N]⟩).lhsIdx (ix3 g p q)
      ((contrEquiv1 _ K rfl rfl).symm t) = ix3 g p t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have r : (⟨[2], [2], [1], [1], [0], [0], w⟩ : DotDims ⟨3, ![G, M, K]⟩ ⟨3, ![G, N, K]⟩ ⟨3, ![G, M, N]⟩).rhsIdx (ix3 g p q)
      ((contrEquiv1 _ K rfl rfl).symm t) = ix3 g q t := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c
  rw [l, r]

end Idealize.ShloMosaic.StackDots

end
-- ==== Proof.Body.lean ====
/-
  The kernel body's one stored value, read at an entry of its output block.

  At a grid point the body holds a 32-row block of the encoder state, one batch's 64 rows of the decoder state, the two
  512-column halves of W1, the first bias, a 512-row block of W2 and the matching 512 entries of the second bias. It
  contracts the encoder block and the decoder block with their halves of W1 over the model coordinate, adds the two
  projections against each other over the 32 × 64 pairs of rows, adds the first bias and takes tanh; it lays the
  32 × 64 pairs out as 2048 rows (pair (p, u) at row 64·p + u), contracts the hidden coordinate with the block of W2,
  adds the second bias, and lays the 2048 rows back out as 32 × 64 pairs. On the extended reals a change of float
  format is the identity and a product accumulated into zeros is the plain sum, so the entry at (p, u, q) is

      ( Σ_t tanh( (Σ_d enc[p,d] · We[t,d] + Σ_d dec[u,d] · Wd[t,d]) + b1[t] ) · W2[q,t] ) + b2[q].
-/
import proofs.«130876_j14817637171800_1_alg».proof.Proof.Gen.KernelIdeal.Skeleton
import proofs.«130876_j14817637171800_1_alg».proof.Proof.LibStackDots
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Joint.Body

open Cert.KernelIdeal Cert.KernelIdeal.Gen Idealize.ShloMosaic Idealize.ShloMosaic.ValueIdx

/-! ## Rows of the flattened 32 × 64 pairs -/

/-- The pair (p, u) sits at row 64·p + u of the 2048 rows. -/
abbrev pairRow (p : Fin 32) (u : Fin 64) : Fin 2048 := ⟨p.val * 64 + u.val, by have := p.isLt; have := u.isLt; omega⟩

/-- Flattening the pairs to rows: row 64·p + u, column t reads (p, u, t). -/
theorem flatten_apply {α : Type} (x : S32x64x512.Idx → α) (h : S32x64x512.ShapeCasts S2048x512) (p : Fin 32) (u : Fin 64) (t : Fin 512) :
    shapeCast S2048x512 x h (ix2 (pairRow p u) t) = x (ix3 p u t) :=
  shapeCast_apply x h _ _ (by
    rw [Shape.rowMajor_val_three, Shape.rowMajor_val_two]
    show (p.val * 64 + u.val) * 512 + t.val = (p.val * 64 + u.val) * 512 + t.val
    rfl)

/-- Laying the rows back out as pairs: (p, u, q) reads row 64·p + u, column q. -/
theorem unflatten_apply {α : Type} (y : S2048x512.Idx → α) (h : S2048x512.ShapeCasts S32x64x512) (p : Fin 32) (u : Fin 64) (q : Fin 512) :
    shapeCast S32x64x512 y h (ix3 p u q) = y (ix2 (pairRow p u) q) :=
  shapeCast_apply y h _ _ (by
    rw [Shape.rowMajor_val_three, Shape.rowMajor_val_two]
    show (p.val * 64 + u.val) * 512 + q.val = (p.val * 64 + u.val) * 512 + q.val
    rfl)

/-! ## The three broadcasts onto the 32 × 64 × 512 grid of pairs and hidden coordinates -/

/-- A value per (p, t), with a unit middle axis, read at (p, u, t). -/
theorem bcast_rows_apply {α : Type} (x : S32x1x512.Idx → α) (h : S32x1x512.Broadcasts S32x64x512) (p : Fin 32) (u : Fin 64) (t : Fin 512) :
    broadcastTo S32x64x512 x h (ix3 p u t) = x (ix3 p (0 : Fin 1) t) :=
  broadcastTo_apply x h _ _ fun a => match a with
    | ⟨0, _⟩ => rfl
    | ⟨1, _⟩ => rfl
    | ⟨2, _⟩ => rfl

/-- A value per (u, t), with a unit leading axis, read at (p, u, t). -/
theorem bcast_cols_apply {α : Type} (x : S1x64x512.Idx → α) (h : S1x64x512.Broadcasts S32x64x512) (p : Fin 32) (u : Fin 64) (t : Fin 512) :
    broadcastTo S32x64x512 x h (ix3 p u t) = x (ix3 (0 : Fin 1) u t) :=
  broadcastTo_apply x h _ _ fun a => match a with
    | ⟨0, _⟩ => rfl
    | ⟨1, _⟩ => rfl
    | ⟨2, _⟩ => rfl

/-- A value per t, with two unit leading axes, read at (p, u, t). -/
theorem bcast_bias_apply {α : Type} (x : S1x1x512.Idx → α) (h : S1x1x512.Broadcasts S32x64x512) (p : Fin 32) (u : Fin 64) (t : Fin 512) :
    broadcastTo S32x64x512 x h (ix3 p u t) = x (ix3 (0 : Fin 1) (0 : Fin 1) t) :=
  broadcastTo_apply x h _ _ fun a => match a with
    | ⟨0, _⟩ => rfl
    | ⟨1, _⟩ => rfl
    | ⟨2, _⟩ => rfl

/-- The (p, t) values given a unit middle axis: (p, 0, t) reads (p, t). -/
theorem mid_unit_apply {α : Type} (x : S32x512.Idx → α) (h : S32x512.ShapeCasts S32x1x512) (p : Fin 32) (z : Fin 1) (t : Fin 512) :
    shapeCast S32x1x512 x h (ix3 p z t) = x (ix2 p t) :=
  shapeCast_apply x h _ _ (by
    have hz : z.val = 0 := by omega
    rw [Shape.rowMajor_val_three, Shape.rowMajor_val_two]
    show p.val * 512 + t.val = (p.val * 1 + z.val) * 512 + t.val
    rw [hz, Nat.mul_one, Nat.add_zero])

/-! ## The hidden activation of the block -/

section
variable (v0 v2 : Vec Ideal S512x512 .bf16) (v4 : Vec Ideal S1x32x512 .bf16) (v6 : Vec Ideal S1x64x512 .bf16)
  (v10 : Vec Ideal S1x512 .f32) (v23 : Vec Ideal S512x512 .bf16) (v26 : Vec Ideal S1x512 .f32)

/-- The encoder block against the first half of W1. -/
def encPart : FVec Ideal S32x512 .f32 :=
  matmul dot_S32x512_S512x512_S32x512_1_1_0_0_n_n none (shapeCast S32x512 v4 shapeCasts_S1x32x512_S32x512 : FVec Ideal S32x512 .bf16)
    (shapeCast S512x512 v0 shapeCasts_S512x512_S512x512 : FVec Ideal S512x512 .bf16) (constant S32x512 .f32 0x00000000#32)

/-- The decoder block against the second half of W1. -/
def decPart : FVec Ideal S64x512 .f32 :=
  matmul dot_S64x512_S512x512_S64x512_1_1_0_0_n_n none (shapeCast S64x512 v6 shapeCasts_S1x64x512_S64x512 : FVec Ideal S64x512 .bf16)
    (shapeCast S512x512 v2 shapeCasts_S512x512_S512x512 : FVec Ideal S512x512 .bf16) (constant S64x512 .f32 0x00000000#32)

/-- tanh of the two projections' sum plus the first bias, over the 32 × 64 × 512 grid. -/
def hid : FVec Ideal S32x64x512 .f32 :=
  tanh (addf (addf (broadcastTo S32x64x512 (shapeCast S32x1x512 (encPart v0 v4) shapeCasts_S32x512_S32x1x512) broadcasts_S32x1x512_S32x64x512)
      (broadcastTo S32x64x512 (shapeCast S1x64x512 (decPart v2 v6) shapeCasts_S64x512_S1x64x512) broadcasts_S1x64x512_S32x64x512))
    (broadcastTo S32x64x512 (shapeCast S1x1x512 (shapeCast S1x512 v10 shapeCasts_S1x512_S1x512 : FVec Ideal S1x512 .f32) shapeCasts_S1x512_S1x1x512)
      broadcasts_S1x1x512_S32x64x512))

/-- The hidden rows against the block of W2, plus the second bias, over the 2048 rows. -/
def outRows : FVec Ideal S2048x512 .f32 :=
  addf (matmul dot_S2048x512_S512x512_S2048x512_1_1_0_0_n_n none
      (truncf .bf16 (shapeCast S2048x512 (hid v0 v2 v4 v6 v10) shapeCasts_S32x64x512_S2048x512 : FVec Ideal S2048x512 .f32) bitsLt_bf16_f32)
      (shapeCast S512x512 v23 shapeCasts_S512x512_S512x512 : FVec Ideal S512x512 .bf16) (constant S2048x512 .f32 0x00000000#32))
    (broadcastTo S2048x512 (shapeCast S1x512 v26 shapeCasts_S1x512_S1x512 : FVec Ideal S1x512 .f32) broadcasts_S1x512_S2048x512)

/-- The body's stored value is these stages composed. -/
theorem pay_eq : k0_pay1 (F := Ideal) v0 v2 v4 v6 v10 v23 v26
    = shapeCast S1x32x64x512 (shapeCast S32x64x512 (outRows v0 v2 v4 v6 v10 v23 v26) shapeCasts_S2048x512_S32x64x512) shapeCasts_S32x64x512_S1x32x64x512 := rfl

theorem encPart_apply (p : Fin 32) (t : Fin 512) :
    encPart v0 v4 (ix2 p t) = ∑ d : Fin 512, v4 (ix3 (0 : Fin 1) p d) * v0 (ix2 t d) := by
  unfold encPart
  rw [shapeCast_self]
  refine (StackDots.matmul_nt_zero_apply (φ₁ := .bf16) (φ₂ := .bf16) dot_S32x512_S512x512_S32x512_1_1_0_0_n_n_wf none _ _ p t).trans ?_
  refine Finset.sum_congr rfl fun d _ => ?_
  rw [shapeCast_1ab_ab_apply]

theorem decPart_apply (u : Fin 64) (t : Fin 512) :
    decPart v2 v6 (ix2 u t) = ∑ d : Fin 512, v6 (ix3 (0 : Fin 1) u d) * v2 (ix2 t d) := by
  unfold decPart
  rw [shapeCast_self]
  refine (StackDots.matmul_nt_zero_apply (φ₁ := .bf16) (φ₂ := .bf16) dot_S64x512_S512x512_S64x512_1_1_0_0_n_n_wf none _ _ u t).trans ?_
  refine Finset.sum_congr rfl fun d _ => ?_
  rw [shapeCast_1ab_ab_apply]

theorem hid_apply (p : Fin 32) (u : Fin 64) (t : Fin 512) :
    hid v0 v2 v4 v6 v10 (ix3 p u t)
      = Ideal.tanh (((∑ d : Fin 512, v4 (ix3 (0 : Fin 1) p d) * v0 (ix2 t d)) + (∑ d : Fin 512, v6 (ix3 (0 : Fin 1) u d) * v2 (ix2 t d)))
          + v10 (ix2 (0 : Fin 1) t)) := by
  unfold hid
  show Ideal.tanh ((_ + _) + _) = _
  rw [bcast_rows_apply, mid_unit_apply, encPart_apply, bcast_cols_apply, shapeCast_ab_1ab_apply, decPart_apply, bcast_bias_apply,
    shapeCast_ab_1ab_apply, shapeCast_self]

theorem outRows_apply (p : Fin 32) (u : Fin 64) (q : Fin 512) :
    outRows v0 v2 v4 v6 v10 v23 v26 (ix2 (pairRow p u) q)
      = (∑ t : Fin 512, hid v0 v2 v4 v6 v10 (ix3 p u t) * v23 (ix2 q t)) + v26 (ix2 (0 : Fin 1) q) := by
  unfold outRows
  show _ + _ = _
  rw [broadcastTo_1b_ab_apply, shapeCast_self, shapeCast_self]
  refine congrArg (· + v26 (ix2 (0 : Fin 1) q)) ?_
  refine (StackDots.matmul_nt_zero_apply (φ₁ := .bf16) (φ₂ := .bf16) dot_S2048x512_S512x512_S2048x512_1_1_0_0_n_n_wf none _ _ (pairRow p u) q).trans ?_
  refine Finset.sum_congr rfl fun t _ => ?_
  show shapeCast S2048x512 (hid v0 v2 v4 v6 v10) shapeCasts_S32x64x512_S2048x512 (ix2 (pairRow p u) t) * _ = _
  rw [flatten_apply]

/-- The stored value at entry (p, u, q) of the block. -/
theorem pay_apply (z : Fin 1) (p : Fin 32) (u : Fin 64) (q : Fin 512) :
    k0_pay1 (F := Ideal) v0 v2 v4 v6 v10 v23 v26 (ix4 z p u q)
      = (∑ t : Fin 512, Ideal.tanh (((∑ d : Fin 512, v4 (ix3 (0 : Fin 1) p d) * v0 (ix2 t d))
            + (∑ d : Fin 512, v6 (ix3 (0 : Fin 1) u d) * v2 (ix2 t d))) + v10 (ix2 (0 : Fin 1) t)) * v23 (ix2 q t))
          + v26 (ix2 (0 : Fin 1) q) := by
  rw [pay_eq, shapeCast_abc_1abc_apply, unflatten_apply, outRows_apply]
  simp only [hid_apply]

end

end Cert.Joint.Body

end
-- ==== Proof.BlockEntry.lean ====
/-
  One grid point's output block is a block of the joint network's output.

  The body's stored value at entry (p, u, q) of the block is the output function's entry at (b, P, U, Q) whenever the
  blocks the body loaded are the matching pieces of the six arrays: row p of the encoder block is row (b, P) of the
  encoder state, row u of the decoder block is row (b, U) of the decoder state, the W1 buffer is W1 (its left and
  right 512 columns the two halves), the first-bias row is b1, row q of the W2 block is row Q of W2, and entry q of
  the second-bias block is entry Q of b2.
-/
import proofs.«130876_j14817637171800_1_alg».proof.Proof.Gen.KernelIdeal.Frame
import proofs.«130876_j14817637171800_1_alg».proof.Proof.Body
import proofs.«130876_j14817637171800_1_alg».proof.Proof.Spec

noncomputable section

open scoped BigOperators

namespace Cert.Joint.Block

open Cert.KernelIdeal Cert.KernelIdeal.Gen Idealize.ShloMosaic Idealize.ShloMosaic.ValueIdx Cert.Joint

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's value at (p, u, q), from what its seven loaded values are. -/
theorem pay_entry (v0 v2 : Vec Ideal S512x512 .bf16) (v4 : Vec Ideal S1x32x512 .bf16) (v6 : Vec Ideal S1x64x512 .bf16)
    (v10 : Vec Ideal S1x512 .f32) (v23 : Vec Ideal S512x512 .bf16) (v26 : Vec Ideal S1x512 .f32)
    (enc : (⟨3, ![2, 256, 512]⟩ : Shape).Idx → EReal) (dec : (⟨3, ![2, 64, 512]⟩ : Shape).Idx → EReal)
    (W1 : (⟨2, ![512, 1024]⟩ : Shape).Idx → EReal) (b1 : (⟨1, ![512]⟩ : Shape).Idx → EReal)
    (W2 : (⟨2, ![4096, 512]⟩ : Shape).Idx → EReal) (b2 : (⟨1, ![4096]⟩ : Shape).Idx → EReal)
    (z : Fin 1) (p : Fin 32) (u : Fin 64) (q : Fin 512) (b : Fin 2) (P : Fin 256) (U : Fin 64) (Q : Fin 4096)
    (h4 : ∀ d : Fin 512, v4 (ix3 (0 : Fin 1) p d) = enc (ix3 b P d))
    (h6 : ∀ d : Fin 512, v6 (ix3 (0 : Fin 1) u d) = dec (ix3 b U d))
    (h0 : ∀ t d : Fin 512, v0 (ix2 t d) = W1 (ix2 t (encCol d)))
    (h2 : ∀ t d : Fin 512, v2 (ix2 t d) = W1 (ix2 t (decCol d)))
    (h10 : ∀ t : Fin 512, v10 (ix2 (0 : Fin 1) t) = b1 (ix1 t))
    (h23 : ∀ t : Fin 512, v23 (ix2 q t) = W2 (ix2 Q t))
    (h26 : v26 (ix2 (0 : Fin 1) q) = b2 (ix1 Q)) :
    k0_pay1 (F := Ideal) v0 v2 v4 v6 v10 v23 v26 (ix4 z p u q) = entry enc dec W1 b1 W2 b2 b P U Q := by
  rw [Body.pay_apply]
  unfold entry hidden encProj decProj
  simp only [h4, h6, h0, h2, h10, h23, h26]

/-- The left 512 columns of the W1 buffer. -/
theorem ld_left (x2 : Vec Ideal S512x1024 .bf16) (t d : Fin 512) : View.ld x2 r0_0 (ix2 t d) = x2 (ix2 t (encCol d)) := by
  show x2 _ = x2 _
  congr 1
  funext a
  apply Fin.ext
  match a with
  | ⟨0, _⟩ => show 0 + 1 * t.val = t.val; omega
  | ⟨1, _⟩ => show 0 + 1 * d.val = d.val; omega

/-- The right 512 columns of the W1 buffer. -/
theorem ld_right (x2 : Vec Ideal S512x1024 .bf16) (t d : Fin 512) : View.ld x2 r0_1 (ix2 t d) = x2 (ix2 t (decCol d)) := by
  show x2 _ = x2 _
  congr 1
  funext a
  apply Fin.ext
  match a with
  | ⟨0, _⟩ => show 0 + 1 * t.val = t.val; omega
  | ⟨1, _⟩ => show 512 + 1 * d.val = 512 + d.val; omega

/-- What the body leaves in the output buffer, at block entry j, from the six buffers it was given. -/
theorem block_entry (x0 : Vec Ideal S1x32x512 .bf16) (x1 : Vec Ideal S1x64x512 .bf16) (x2 : Vec Ideal S512x1024 .bf16)
    (x3 : Vec Ideal S1x512 .f32) (x4 : Vec Ideal S512x512 .bf16) (x5 : Vec Ideal S1x512 .f32)
    (enc : (⟨3, ![2, 256, 512]⟩ : Shape).Idx → EReal) (dec : (⟨3, ![2, 64, 512]⟩ : Shape).Idx → EReal)
    (W1 : (⟨2, ![512, 1024]⟩ : Shape).Idx → EReal) (b1 : (⟨1, ![512]⟩ : Shape).Idx → EReal)
    (W2 : (⟨2, ![4096, 512]⟩ : Shape).Idx → EReal) (b2 : (⟨1, ![4096]⟩ : Shape).Idx → EReal)
    (j : S1x32x64x512.Idx) (b : Fin 2) (P : Fin 256) (U : Fin 64) (Q : Fin 4096)
    (h0 : ∀ d : Fin 512, x0 (ix3 (0 : Fin 1) (j 1) d) = enc (ix3 b P d))
    (h1 : ∀ d : Fin 512, x1 (ix3 (0 : Fin 1) (j 2) d) = dec (ix3 b U d))
    (h2 : ∀ k, x2 k = W1 k)
    (h3 : ∀ t : Fin 512, x3 (ix2 (0 : Fin 1) t) = b1 (ix1 t))
    (h4 : ∀ t : Fin 512, x4 (ix2 (j 3) t) = W2 (ix2 Q t))
    (h5 : x5 (ix2 (0 : Fin 1) (j 3)) = b2 (ix1 Q)) :
    out0_6 (F := Ideal) x0 x1 x2 x3 x4 x5 j = entry enc dec W1 b1 W2 b2 b P U Q := by
  obtain ⟨z, p, u, q, rfl⟩ : ∃ (z : Fin 1) (p : Fin 32) (u : Fin 64) (q : Fin 512), j = ix4 z p u q :=
    ⟨j 0, j 1, j 2, j 3, eq_ix4 j⟩
  unfold out0_6
  rw [View.canon_unit_zero hz4]
  refine pay_entry _ _ _ _ _ _ _ enc dec W1 b1 W2 b2 z p u q b P U Q ?_ ?_ ?_ ?_ ?_ ?_ ?_
  · intro d; rw [View.ld_unit_zero (S := S1x32x512) hz3]; exact h0 d
  · intro d; rw [View.ld_unit_zero (S := S1x64x512) hz3]; exact h1 d
  · intro t d; exact (ld_left x2 t d).trans (h2 _)
  · intro t d; exact (ld_right x2 t d).trans (h2 _)
  · intro t; rw [View.ld_unit_zero (S := S1x512) hz2]; exact h3 t
  · intro t; rw [View.ld_unit_zero (S := S512x512) hz2]; exact h4 t
  · rw [View.ld_unit_zero (S := S1x512) hz2]; exact h5

end Cert.Joint.Block

end
-- ==== Proof.Blocks.lean ====
/-
  The kernel's output array after the run is the joint network's output function of the six argument arrays.

  Before the launch the host changes the float format of the two states and the two weight matrices (the identity on
  the extended reals) and lays each bias out as one row. Grid point (b, s, v) of the 2 × 8 × 8 grid is handed rows
  32·s … 32·s + 31 of batch b of the encoder state, all of batch b of the decoder state, all of W1 and of the first
  bias, rows 512·v … 512·v + 511 of W2 and entries 512·v … 512·v + 511 of the second bias, and writes back the block
  of the output at batch b, encoder steps 32·s …, all decoder steps, vocabulary entries 512·v …. So what a point
  writes back is that block of the output function, and the 128 blocks tile the output array.
-/
import proofs.«130876_j14817637171800_1_alg».proof.Proof.Gen.KernelIdeal.Value
import proofs.«130876_j14817637171800_1_alg».proof.Proof.BlockEntry
import Idealize.ShloMosaic.Lib.Pipeline.Value
import Idealize.ShloMosaic.Lib.StableHlo.Run
import Idealize.ShloMosaic.Lib.ValueLayout

noncomputable section

namespace Cert.Joint.Run

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Joint
open Idealize.ShloMosaic.Pipeline (Dat)

variable (m : (ℓ : Loc nD τ sig) → Buf (Elt Ideal) ℓ) (ρ : Dev nD → PrngReg)

/-! ## The six argument arrays, as launched -/

abbrev encA (c : Dev nD) : S2x256x512.Idx → EReal := m ((c : Thread nD τ).loc main_arg0)
abbrev decA (c : Dev nD) : S2x64x512.Idx → EReal := m ((c : Thread nD τ).loc main_arg1)
abbrev w1A (c : Dev nD) : S512x1024.Idx → EReal := m ((c : Thread nD τ).loc main_arg2)
abbrev b1A (c : Dev nD) : S512.Idx → EReal := m ((c : Thread nD τ).loc main_arg3)
abbrev w2A (c : Dev nD) : S4096x512.Idx → EReal := m ((c : Thread nD τ).loc main_arg4)
abbrev b2A (c : Dev nD) : S4096.Idx → EReal := m ((c : Thread nD τ).loc main_arg5)

/-- The output function of the arguments as launched. -/
abbrev outA (c : Dev nD) : S2x256x64x4096.Idx → EReal := logits (encA m c) (decA m c) (w1A m c) (b1A m c) (w2A m c) (b2A m c)

/-! ## What the launch finds in the six operand arrays -/

theorem V_enc (c : Dev nD) : (V m c main_v0 : S2x256x512.Idx → EReal) = encA m c := by
  dsimp only [V, hostOps0]; after_results; rfl
theorem V_dec (c : Dev nD) : (V m c main_v1 : S2x64x512.Idx → EReal) = decA m c := by
  dsimp only [V, hostOps0]; after_results; rfl
theorem V_w1 (c : Dev nD) : (V m c main_v2 : S512x1024.Idx → EReal) = w1A m c := by
  dsimp only [V, hostOps0]; after_results; rfl
theorem V_w2 (c : Dev nD) : (V m c main_v3 : S4096x512.Idx → EReal) = w2A m c := by
  dsimp only [V, hostOps0]; after_results; rfl
theorem V_b1 (c : Dev nD) : (V m c main_v4 : S1x512.Idx → EReal) = shapeCast S1x512 (b1A m c) shapeCasts_S512_S1x512 := by
  dsimp only [V, hostOps0]; after_results; rfl
theorem V_b2 (c : Dev nD) : (V m c main_v5 : S1x4096.Idx → EReal) = shapeCast S1x4096 (b2A m c) shapeCasts_S4096_S1x4096 := by
  dsimp only [V, hostOps0]; after_results; rfl

/-! ## Each window's block at a point, entry by entry -/

/-- The encoder window's block: entry y of block t is the encoder state at block index × block size + y. -/
theorem blk_enc (c : Dev nD) (t : Fin cfg0.N) (y : S1x32x512.Idx) (k : S2x256x512.Idx)
    (hk0 : (k 0).val = win0_0.index t 0 * 1 + (y 0).val) (hk1 : (k 1).val = win0_0.index t 1 * 32 + (y 1).val)
    (hk2 : (k 2).val = win0_0.index t 2 * 512 + (y 2).val) :
    (iblk m c 0 t : Vec Ideal S1x32x512 .bf16) y = encA m c k := by
  unfold iblk
  rw [View.read_apply]
  show (V m c main_v0 : S2x256x512.Idx → EReal) _ = _
  rw [V_enc]
  congr 1
  funext a
  apply Fin.ext
  match a with
  | ⟨0, _⟩ => show win0_0.index t 0 * 1 + 1 * (y 0).val = (k 0).val; omega
  | ⟨1, _⟩ => show win0_0.index t 1 * 32 + 1 * (y 1).val = (k 1).val; omega
  | ⟨2, _⟩ => show win0_0.index t 2 * 512 + 1 * (y 2).val = (k 2).val; omega

/-- The decoder window's block. -/
theorem blk_dec (c : Dev nD) (t : Fin cfg0.N) (y : S1x64x512.Idx) (k : S2x64x512.Idx)
    (hk0 : (k 0).val = win0_1.index t 0 * 1 + (y 0).val) (hk1 : (k 1).val = win0_1.index t 1 * 64 + (y 1).val)
    (hk2 : (k 2).val = win0_1.index t 2 * 512 + (y 2).val) :
    (iblk m c 1 t : Vec Ideal S1x64x512 .bf16) y = decA m c k := by
  unfold iblk
  rw [View.read_apply]
  show (V m c main_v1 : S2x64x512.Idx → EReal) _ = _
  rw [V_dec]
  congr 1
  funext a
  apply Fin.ext
  match a with
  | ⟨0, _⟩ => show win0_1.index t 0 * 1 + 1 * (y 0).val = (k 0).val; omega
  | ⟨1, _⟩ => show win0_1.index t 1 * 64 + 1 * (y 1).val = (k 1).val; omega
  | ⟨2, _⟩ => show win0_1.index t 2 * 512 + 1 * (y 2).val = (k 2).val; omega

/-- The W1 window's block. -/
theorem blk_w1 (c : Dev nD) (t : Fin cfg0.N) (y : S512x1024.Idx) (k : S512x1024.Idx)
    (hk0 : (k 0).val = win0_2.index t 0 * 512 + (y 0).val) (hk1 : (k 1).val = win0_2.index t 1 * 1024 + (y 1).val) :
    (iblk m c 2 t : Vec Ideal S512x1024 .bf16) y = w1A m c k := by
  unfold iblk
  rw [View.read_apply]
  show (V m c main_v2 : S512x1024.Idx → EReal) _ = _
  rw [V_w1]
  congr 1
  funext a
  apply Fin.ext
  match a with
  | ⟨0, _⟩ => show win0_2.index t 0 * 512 + 1 * (y 0).val = (k 0).val; omega
  | ⟨1, _⟩ => show win0_2.index t 1 * 1024 + 1 * (y 1).val = (k 1).val; omega

/-- The first bias's window's block, read off the bias laid out as one row. -/
theorem blk_b1 (c : Dev nD) (t : Fin cfg0.N) (y : S1x512.Idx) (k : Fin 512)
    (hy0 : win0_3.index t 0 = 0) (hk : k.val = win0_3.index t 1 * 512 + (y 1).val) :
    (iblk m c 3 t : Vec Ideal S1x512 .f32) y = b1A m c (ix1 k) := by
  unfold iblk
  rw [View.read_apply]
  show (V m c main_v4 : S1x512.Idx → EReal) _ = _
  rw [V_b1]
  refine (congrArg (shapeCast S1x512 (b1A m c) shapeCasts_S512_S1x512) (?_ : _ = ix2 (0 : Fin 1) k)).trans
    (shapeCast_a_1a_apply (b1A m c) shapeCasts_S512_S1x512 (0 : Fin 1) k)
  funext a
  apply Fin.ext
  match a with
  | ⟨0, _⟩ => show win0_3.index t 0 * 1 + 1 * (y 0).val = 0; have hy : (y 0).val < 1 := (y 0).isLt; omega
  | ⟨1, _⟩ => show win0_3.index t 1 * 512 + 1 * (y 1).val = k.val; omega

/-- The W2 window's block. -/
theorem blk_w2 (c : Dev nD) (t : Fin cfg0.N) (y : S512x512.Idx) (k : S4096x512.Idx)
    (hk0 : (k 0).val = win0_4.index t 0 * 512 + (y 0).val) (hk1 : (k 1).val = win0_4.index t 1 * 512 + (y 1).val) :
    (iblk m c 4 t : Vec Ideal S512x512 .bf16) y = w2A m c k := by
  unfold iblk
  rw [View.read_apply]
  show (V m c main_v3 : S4096x512.Idx → EReal) _ = _
  rw [V_w2]
  congr 1
  funext a
  apply Fin.ext
  match a with
  | ⟨0, _⟩ => show win0_4.index t 0 * 512 + 1 * (y 0).val = (k 0).val; omega
  | ⟨1, _⟩ => show win0_4.index t 1 * 512 + 1 * (y 1).val = (k 1).val; omega

/-- The second bias's window's block, read off the bias laid out as one row. -/
theorem blk_b2 (c : Dev nD) (t : Fin cfg0.N) (y : S1x512.Idx) (k : Fin 4096)
    (hy0 : win0_5.index t 0 = 0) (hk : k.val = win0_5.index t 1 * 512 + (y 1).val) :
    (iblk m c 5 t : Vec Ideal S1x512 .f32) y = b2A m c (ix1 k) := by
  unfold iblk
  rw [View.read_apply]
  show (V m c main_v5 : S1x4096.Idx → EReal) _ = _
  rw [V_b2]
  refine (congrArg (shapeCast S1x4096 (b2A m c) shapeCasts_S4096_S1x4096) (?_ : _ = ix2 (0 : Fin 1) k)).trans
    (shapeCast_a_1a_apply (b2A m c) shapeCasts_S4096_S1x4096 (0 : Fin 1) k)
  funext a
  apply Fin.ext
  match a with
  | ⟨0, _⟩ => show win0_5.index t 0 * 1 + 1 * (y 0).val = 0; have hy : (y 0).val < 1 := (y 0).isLt; omega
  | ⟨1, _⟩ => show win0_5.index t 1 * 512 + 1 * (y 1).val = k.val; omega

/-! ## The index maps over the grid -/

/-- Every input window's block index in terms of the output window's, at every grid point; and the output's ranges. -/
theorem idx_facts : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_6.index t (3 : Fin 4) ∧ win0_4.index t (1 : Fin 2) = 0
    ∧ win0_5.index t (0 : Fin 2) = 0 ∧ win0_5.index t (1 : Fin 2) = win0_6.index t (3 : Fin 4)
    ∧ win0_6.index t (0 : Fin 4) ≤ 1 ∧ win0_6.index t (1 : Fin 4) ≤ 7 ∧ win0_6.index t (2 : Fin 4) = 0
    ∧ win0_6.index t (3 : Fin 4) ≤ 7 :=
  (by decide +kernel : ∀ t : Fin grid0.N, _)

/-- Every block of the output is some grid point's. -/
theorem idx_onto : ∀ (q0 : Fin 2) (q1 : Fin 8) (q3 : Fin 8), ∃ t : Fin cfg0.N, win0_6.index t = ![q0.val, q1.val, 0, q3.val] :=
  (by decide +kernel : ∀ (q0 : Fin 2) (q1 : Fin 8) (q3 : Fin 8), ∃ t : Fin grid0.N, win0_6.index t = ![q0.val, q1.val, 0, q3.val])

/-! ## What a point writes back -/

/-- Point t writes back block t of the output function. -/
theorem flushed_eq (c : Dev nD) (t : Fin cfg0.N) :
    (dats m 0 c).flushed 6 t = ((cfg0.win 6).blk t).view.read (Elt Ideal) (outA m c) := by
  rw [Value.flushed6]
  obtain ⟨e00, e01, e02, e10, e11, e12, e20, e21, e30, e31, e40, e41, e50, e51, r0, r1, e62, r3⟩ := idx_facts t
  funext j
  have hj0 : (j 0).val < 1 := (j 0).isLt
  have hj1 : (j 1).val < 32 := (j 1).isLt
  have hj2 : (j 2).val < 64 := (j 2).isLt
  have hj3 : (j 3).val < 512 := (j 3).isLt
  have E0 : ((((cfg0.win 6).blk t).view.emb j) 0).val = win0_6.index t (0 : Fin 4) * 1 + (j 0).val := by
    show win0_6.index t (0 : Fin 4) * 1 + 1 * (j 0).val = _; omega
  have E1 : ((((cfg0.win 6).blk t).view.emb j) 1).val = win0_6.index t (1 : Fin 4) * 32 + (j 1).val := by
    show win0_6.index t (1 : Fin 4) * 32 + 1 * (j 1).val = _; omega
  have E2 : ((((cfg0.win 6).blk t).view.emb j) 2).val = win0_6.index t (2 : Fin 4) * 64 + (j 2).val := by
    show win0_6.index t (2 : Fin 4) * 64 + 1 * (j 2).val = _; omega
  have E3 : ((((cfg0.win 6).blk t).view.emb j) 3).val = win0_6.index t (3 : Fin 4) * 512 + (j 3).val := by
    show win0_6.index t (3 : Fin 4) * 512 + 1 * (j 3).val = _; omega
  show out0_6 (iblk m c 0 t) (iblk m c 1 t) (iblk m c 2 t) (iblk m c 3 t) (iblk m c 4 t) (iblk m c 5 t) j
    = entry (encA m c) (decA m c) (w1A m c) (b1A m c) (w2A m c) (b2A m c) ((((cfg0.win 6).blk t).view.emb j) 0)
        ((((cfg0.win 6).blk t).view.emb j) 1) ((((cfg0.win 6).blk t).view.emb j) 2) ((((cfg0.win 6).blk t).view.emb j) 3)
  refine Block.block_entry (iblk m c 0 t) (iblk m c 1 t) (iblk m c 2 t) (iblk m c 3 t) (iblk m c 4 t) (iblk m c 5 t)
    (encA m c) (decA m c) (w1A m c) (b1A m c) (w2A m c) (b2A m c) j _ _ _ _ ?_ ?_ ?_ ?_ ?_ ?_
  · intro d
    refine blk_enc m c t _ _ ?_ ?_ ?_
    · show ((((cfg0.win 6).blk t).view.emb j) 0).val = win0_0.index t 0 * 1 + 0; omega
    · show ((((cfg0.win 6).blk t).view.emb j) 1).val = win0_0.index t 1 * 32 + (j 1).val; omega
    · show d.val = win0_0.index t 2 * 512 + d.val; omega
  · intro d
    refine blk_dec m c t _ _ ?_ ?_ ?_
    · show ((((cfg0.win 6).blk t).view.emb j) 0).val = win0_1.index t 0 * 1 + 0; omega
    · show ((((cfg0.win 6).blk t).view.emb j) 2).val = win0_1.index t 1 * 64 + (j 2).val; omega
    · show d.val = win0_1.index t 2 * 512 + d.val; omega
  · intro k
    refine blk_w1 m c t _ _ ?_ ?_
    · show (k 0).val = win0_2.index t 0 * 512 + (k 0).val; omega
    · show (k 1).val = win0_2.index t 1 * 1024 + (k 1).val; omega
  · intro s
    refine blk_b1 m c t _ _ e30 ?_
    show s.val = win0_3.index t 1 * 512 + s.val; omega
  · intro s
    refine blk_w2 m c t _ _ ?_ ?_
    · show ((((cfg0.win 6).blk t).view.emb j) 3).val = win0_4.index t 0 * 512 + (j 3).val; omega
    · show s.val = win0_4.index t 1 * 512 + s.val; omega
  · refine blk_b2 m c t _ _ e50 ?_
    show ((((cfg0.win 6).blk t).view.emb j) 3).val = win0_5.index t 1 * 512 + (j 3).val; omega

/-! ## The blocks tile the output array -/

/-- An index of the output array is in point t's block iff each coordinate is in the block's range. -/
theorem mem_blk (t : Fin cfg0.N) (i : S2x256x64x4096.Idx) :
    i ∈ ((cfg0.win 6).blk t).view.set ↔ ∀ a : Fin 4, win0_6.index t a * S1x32x64x512.size a ≤ (i a).val ∧ (i a).val < win0_6.index t a * S1x32x64x512.size a + S1x32x64x512.size a := by
  show i ∈ ((View.whole main_v6).slice (win0_6.rect t)).set ↔ _
  rw [View.set_slice_whole, Rect.mem_set_unit]
  exact Iff.rfl

/-- Every index of the output array is in the block of the point its batch, encoder step and vocabulary entry name. -/
theorem cover (i : S2x256x64x4096.Idx) : ∃ t : Fin cfg0.N, (cfg0.win 6).flush t = true ∧ i ∈ ((cfg0.win 6).blk t).view.set := by
  have hi0 : (i 0).val < 2 := (i 0).isLt
  have hi1 : (i 1).val < 256 := (i 1).isLt
  have hi2 : (i 2).val < 64 := (i 2).isLt
  have hi3 : (i 3).val < 4096 := (i 3).isLt
  obtain ⟨t, ht⟩ := idx_onto ⟨(i 0).val, by omega⟩ ⟨(i 1).val / 32, by omega⟩ ⟨(i 3).val / 512, by omega⟩
  have q0 : win0_6.index t (0 : Fin 4) = (i 0).val := congrFun ht 0
  have q1 : win0_6.index t (1 : Fin 4) = (i 1).val / 32 := congrFun ht 1
  have q2 : win0_6.index t (2 : Fin 4) = 0 := congrFun ht 2
  have q3 : win0_6.index t (3 : Fin 4) = (i 3).val / 512 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 32 ≤ (i 1).val ∧ (i 1).val < win0_6.index t (1 : Fin 4) * 32 + 32; omega
  | ⟨2, _⟩ => show win0_6.index t (2 : Fin 4) * 64 ≤ (i 2).val ∧ (i 2).val < win0_6.index t (2 : Fin 4) * 64 + 64; omega
  | ⟨3, _⟩ => show win0_6.index t (3 : Fin 4) * 512 ≤ (i 3).val ∧ (i 3).val < win0_6.index t (3 : Fin 4) * 512 + 512; omega

/-- The output array after the run. -/
theorem final (c : Dev nD) : (dats m 0 c).arrAt 6 cfg0.N = outA m c :=
  (dats m 0 c).arrAt_eq_of_cover 6 (outA m c) (fun t _ => flushed_eq m c t) cover

/-- The kernel's run, read: the result array holds the output function of the arguments; the arguments are unchanged. -/
theorem run : θ_run defs (onTc (τ := τ) (main (F := Ideal))) ⟨m, fun _ => 0, ρ⟩ fun r => ∀ c : Dev nD,
      r.2.mem ((c : Thread nD τ).loc main_v6) = outA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.Joint.Run

end
-- ==== Proof.lean ====
/-
  The joint network kernel against its reference: both compute, entry by entry on the extended reals,

      out[b, p, u, q] = ( Σ_t tanh( (Σ_d enc[b,p,d] · W1[t,d] + Σ_d dec[b,u,d] · W1[t,512+d]) + b1[t] ) · W2[q,t] ) + b2[q].

  The kernel tiles the output over batch, 32 encoder steps and 512 vocabulary entries per grid point, recomputes the two
  projections at each point and contracts the hidden coordinate with a 512-row block of W2; the reference projects each
  state once and contracts with all of W2. A change of float format is the identity on the extended reals, and the
  sums and their grouping are the same on both sides, so the two results are one function of the arguments
  (`Cert.Joint.logits`) and no finiteness of the inputs is used.

  Spec: the output function. RefIsSpec: the reference's last stage is it. Body: the kernel body's stored value at
  a block entry. BlockEntry: that value is the output function's entry when the loaded blocks are the matching
  pieces of the arguments. Blocks: each grid point writes back its block of the output function and the blocks tile the
  output array. LibStackDots: a matrix product with a transposed right operand into zeros, read at an entry as a sum.
-/
import proofs.«130876_j14817637171800_1_alg».proof.Defs
import proofs.«130876_j14817637171800_1_alg».proof.Proof.Gen.Kernel
import proofs.«130876_j14817637171800_1_alg».proof.Proof.Gen.Kernel.Skeleton
import proofs.«130876_j14817637171800_1_alg».proof.Proof.Gen.Kernel.Launch
import proofs.«130876_j14817637171800_1_alg».proof.Proof.Gen.Kernel.Points
import proofs.«130876_j14817637171800_1_alg».proof.Proof.Gen.Kernel.Frame
import proofs.«130876_j14817637171800_1_alg».proof.Proof.Gen.KernelIdeal
import proofs.«130876_j14817637171800_1_alg».proof.Proof.Gen.KernelIdeal.Skeleton
import proofs.«130876_j14817637171800_1_alg».proof.Proof.Gen.KernelIdeal.Launch
import proofs.«130876_j14817637171800_1_alg».proof.Proof.Gen.KernelIdeal.Points
import proofs.«130876_j14817637171800_1_alg».proof.Proof.Gen.KernelIdeal.Frame
import proofs.«130876_j14817637171800_1_alg».proof.Proof.Gen.ReferenceIdeal
import proofs.«130876_j14817637171800_1_alg».proof.Proof.Gen.KernelIdeal.Value
import proofs.«130876_j14817637171800_1_alg».proof.Proof.Gen.ReferenceIdeal.Run
import proofs.«130876_j14817637171800_1_alg».proof.Proof.Gen.ReferenceIdeal.Read
import proofs.«130876_j14817637171800_1_alg».proof.Proof.Gen.Pre_finite_inputs
import proofs.«130876_j14817637171800_1_alg».proof.Proof.RefIsSpec
import proofs.«130876_j14817637171800_1_alg».proof.Proof.Blocks
import Idealize.ShloMosaic.Adequacy
import Idealize.ShloMosaic.Init

noncomputable section

namespace Cert.Proof

open Idealize.ShloMosaic Idealize.SL.Sem

/-- The kernel at the word level runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: it runs, and its arguments are unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the six arguments both programs end with the output function of those arguments. -/
theorem algebraic : Cert.algebraic_KernelIdeal_ReferenceIdeal := by
  intro m ρ m' ρ' _ hagree
  refine ⟨fun c => Cert.Joint.Run.outA m c, Cert.Joint.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Joint.Ref.ref_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
